-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S500000 : S_.BroadcastsInDim S500000 (![] : Fin 0 → Fin S500000.rank)
  reducesTo_S500000_S_d0 : S500000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S257x64 : S_.BroadcastsInDim S257x64 (![] : Fin 0 → Fin S257x64.rank)
  reducesTo_S257x64_S_d0_1 : S257x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128 .f32) (main_arg10 : FVec F S128x128 .f32) (main_arg11 : FVec F S257x64 .f32) (main_arg12 : FVec F S64 .f32) (main_arg13 : FVec F S64x1 .f32) (main_arg14 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S257x64 .f32 := Host.absf main_arg11
  let main_cst_16 : FVec F S_ .f32 := constant S_ .f32 0x7F800000#32
  let main_v45 : FVec F S257x64 .f32 := broadcastInDim S257x64 ![] bcast_S_S257x64 main_cst_16
  let main_v46 : IVec S257x64 1 := cmpf .olt main_v44 main_v45
  let main_c_17 : IVec S_ 1 := constantI S_ 1 1#1
  let main_v47 : IVec S_ 1 := (fun x v => Host.reduce IntOp.andi x v reducesTo_S257x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S257x64 .f32) (main_arg12 : FVec F S64 .f32) (main_arg13 : FVec F S64x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : FVec F S1600000 .f32) (main_arg3 : IVec S2x500000 32) (main_arg4 : FVec F S500000 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S257x64 .f32) (main_arg12 : FVec F S64 .f32) (main_arg13 : FVec F S64x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S500000 .f32 := Host.absf main_arg4
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x500000 : Shape := ⟨2, ![1, 500000]⟩
abbrev S500000x1 : Shape := ⟨2, ![500000, 1]⟩
abbrev S500000x128 : Shape := ⟨2, ![500000, 128]⟩
abbrev S128x64 : Shape := ⟨2, ![128, 64]⟩
abbrev S1x64 : Shape := ⟨2, ![1, 64]⟩
abbrev S1x1 : Shape := ⟨2, ![1, 1]⟩
abbrev S10000x128 : Shape := ⟨2, ![10000, 128]⟩
abbrev S10000x1 : Shape := ⟨2, ![10000, 1]⟩
abbrev S10000x64 : Shape := ⟨2, ![10000, 64]⟩

abbrev nBuf : Space → Nat
  | .hbm => 102
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x500000, .i32⟩
  | .hbm, ⟨4, _⟩ => ⟨S500000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S257x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S1x500000, .i32⟩
  | .hbm, ⟨73, _⟩ => ⟨S500000, .i32⟩
  | .hbm, ⟨74, _⟩ => ⟨S_, .i32⟩
  | .hbm, ⟨75, _⟩ => ⟨S500000, .i32⟩
  | .hbm, ⟨76, _⟩ => ⟨S500000, .i1⟩
  | .hbm, ⟨77, _⟩ => ⟨S_, .i32⟩
  | .hbm, ⟨78, _⟩ => ⟨S500000, .i32⟩
  | .hbm, ⟨79, _⟩ => ⟨S500000, .i32⟩
  | .hbm, ⟨80, _⟩ => ⟨S500000, .i32⟩
  | .hbm, ⟨81, _⟩ => ⟨S500000x1, .i32⟩
  | .hbm, ⟨82, _⟩ => ⟨S500000x128, .f32⟩
  | .hbm, ⟨83, _⟩ => ⟨S1x500000, .i32⟩
  | .hbm, ⟨84, _⟩ => ⟨S500000, .i32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x128, .f32⟩
  | .hbm, ⟨94, _⟩ => ⟨S500000x1, .f32⟩
  | .hbm, ⟨95, _⟩ => ⟨S128x64, .f32⟩
  | .hbm, ⟨96, _⟩ => ⟨S128x64, .f32⟩
  | .hbm, ⟨97, _⟩ => ⟨S1x64, .f32⟩
  | .hbm, ⟨98, _⟩ => ⟨S1x64, .f32⟩
  | .hbm, ⟨99, _⟩ => ⟨S1x1, .f32⟩
  | .hbm, ⟨100, _⟩ => ⟨S500000x1, .f32⟩
  | .hbm, ⟨101, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S128x64, .f32⟩
  | .local _ .vmem, ⟨25, _⟩ => ⟨S128x64, .f32⟩
  | .local _ .vmem, ⟨26, _⟩ => ⟨S1x64, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S257x64_S128x64_0_0 : S257x64.Slices ![0, 0] S128x64
  slices_S257x64_S128x64_128_0 : S257x64.Slices ![128, 0] S128x64
  slices_S257x64_S1x64_256_0 : S257x64.Slices ![256, 0] S1x64
  shapeCasts_S64_S1x64 : S64.ShapeCasts S1x64
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S500000x1_S500000 : S500000x1.ShapeCasts S500000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S500000x128.size a
  hwx2_1 : ∀ i : grid2.Coords, EltTy.bits .f32 = 32 ∨ (Rect.block (s := S500000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S500000x1.size a
  hwx2_2 : ∀ i : grid2.Coords, EltTy.bits .f32 = 32 ∨ (Rect.block (s := S500000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x1.size a ≤ S500000x1.size a
  hwx2_9 : ∀ i : grid2.Coords, EltTy.bits .f32 = 32 ∨ (Rect.block (s := S500000x1) S10000x1.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v70) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v71) S10000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x500000 : Shape := ⟨2, ![1, 500000]⟩
abbrev S500000x1 : Shape := ⟨2, ![500000, 1]⟩
abbrev S500000x128 : Shape := ⟨2, ![500000, 128]⟩
abbrev S500000x257 : Shape := ⟨2, ![500000, 257]⟩
abbrev S500000x64 : Shape := ⟨2, ![500000, 64]⟩
abbrev S1x64 : Shape := ⟨2, ![1, 64]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x500000, .i32⟩
  | .hbm, ⟨4, _⟩ => ⟨S500000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S257x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x1, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x500000, .i32⟩
  | .hbm, ⟨91, _⟩ => ⟨S500000, .i32⟩
  | .hbm, ⟨92, _⟩ => ⟨S_, .i32⟩
  | .hbm, ⟨93, _⟩ => ⟨S500000, .i32⟩
  | .hbm, ⟨94, _⟩ => ⟨S500000, .i1⟩
  | .hbm, ⟨95, _⟩ => ⟨S_, .i32⟩
  | .hbm, ⟨96, _⟩ => ⟨S500000, .i32⟩
  | .hbm, ⟨97, _⟩ => ⟨S500000, .i32⟩
  | .hbm, ⟨98, _⟩ => ⟨S500000, .i32⟩
  | .hbm, ⟨99, _⟩ => ⟨S500000x1, .i32⟩
  | .hbm, ⟨100, _⟩ => ⟨S500000x128, .f32⟩
  | .hbm, ⟨101, _⟩ => ⟨S1x500000, .i32⟩
  | .hbm, ⟨102, _⟩ => ⟨S500000, .i32⟩
  | .hbm, ⟨103, _⟩ => ⟨S_, .i32⟩
  | .hbm, ⟨104, _⟩ => ⟨S500000, .i32⟩
  | .hbm, ⟨105, _⟩ => ⟨S500000, .i1⟩
  | .hbm, ⟨106, _⟩ => ⟨S_, .i32⟩
  | .hbm, ⟨107, _⟩ => ⟨S500000, .i32⟩
  | .hbm, ⟨108, _⟩ => ⟨S500000, .i32⟩
  | .hbm, ⟨109, _⟩ => ⟨S500000, .i32⟩
  | .hbm, ⟨110, _⟩ => ⟨S500000x1, .i32⟩
  | .hbm, ⟨111, _⟩ => ⟨S500000x128, .f32⟩
  | .hbm, ⟨112, _⟩ => ⟨S500000x1, .f32⟩
  | .hbm, ⟨113, _⟩ => ⟨S500000x257, .f32⟩
  | .hbm, ⟨114, _⟩ => ⟨S500000x64, .f32⟩
  | .hbm, ⟨115, _⟩ => ⟨S1x64, .f32⟩
  | .hbm, ⟨116, _⟩ => ⟨S500000x64, .f32⟩
  | .hbm, ⟨117, _⟩ => ⟨S500000x64, .f32⟩
  | .hbm, ⟨118, _⟩ => ⟨S_, .f32⟩
  | .hbm, ⟨119, _⟩ => ⟨S500000x64, .f32⟩
  | .hbm, ⟨120, _⟩ => ⟨S500000x64, .f32⟩
  | .hbm, ⟨121, _⟩ => ⟨S500000x1, .f32⟩
  | .hbm, ⟨122, _⟩ => ⟨S1x1, .f32⟩
  | .hbm, ⟨123, _⟩ => ⟨S500000x1, .f32⟩
  | .hbm, ⟨124, _⟩ => ⟨S500000x1, .f32⟩
  | .hbm, ⟨125, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_cst : Ref sig .tc := ⟨.hbm, 118, rfl⟩
abbrev main_call1_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x1_S500000x257_d1 : Shape.Concatenates [S500000x128, S500000x128, S500000x1] S500000x257 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x257_S257x64_S500000x64_1_0_0_1_n_n_wf : DotDims.WF S500000x257 S257x64 S500000x64 [1] [0] [0] [1] [] []
  dot_S500000x64_S64x1_S500000x1_1_0_0_1_n_n_wf : DotDims.WF S500000x64 S64x1 S500000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x257_S257x64_S500000x64_1_0_0_1_n_n : DotDims S500000x257 S257x64 S500000x64 where
  lhsContracting := [1]
  rhsContracting := [0]
  lhsNonContracting := [0]
  rhsNonContracting := [1]
  lhsBatch := []
  rhsBatch := []
  wf := dot_S500000x257_S257x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.LibDot.lean ====
/-
  Plain matrix products at the exact instance, read at an output index.

  For the dimension numbers of an M×K by K×N product (one contracted axis, no batch axis), the sum over the
  contraction index set is the sum over k < K of the left operand at (row, k) times the right operand at
  (k, column).  Stated for the matrix unit's product into a zero accumulator and for the host's dot_general.
-/
import Idealize.ShloMosaic.PureOps.Ideal.Laws
import Idealize.ShloMosaic.Lib.ValueIdx

noncomputable section

namespace Cert.LibDot

open Idealize.ShloMosaic Idealize.ShloMosaic.ValueIdx

/-- The contraction sum of an M×K by K×N product at the output index j is the sum over k < K of
    l (j₀, k) · r (k, j₁). -/
theorem sum_plain (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The matrix unit's product into a zero accumulator, at an output index. -/
theorem matmul_plain_apply {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply]
  exact sum_plain M K N l r j

/-- The host's dot_general, at an output index. -/
theorem dotGeneral_plain_apply {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) := by
  rw [Ideal.dotGeneral_apply]
  exact sum_plain M K N l r j

end Cert.LibDot

end
-- ==== Proof.Spec.lean ====
/-
  The arithmetic of the two dense stages, one row at a time, over the extended reals.

  A GraphConv node row:   (a · W_rel)_q + b_q + (x · W_root)_q,   a the node's mean-aggregated neighbour row,
  x its own feature row.  A decoder row: the 64 hidden units are
  max(z_src · W_s + z_dst · W_d + e · w + b₁, 0), and the score is their product with W₂ plus b₂.
  Two laws join the two programs: a mean taken as  s · (1 / c)  is the quotient  s / c  whenever c ≠ 0
  (here c = max(count, 1)), and a sum over 257 = 128 + 128 + 1 positions splits into its three stretches.
-/
import Mathlib.Algebra.BigOperators.Fin
import Idealize.ShloMosaic.PureOps.Ideal.Laws
import Idealize.ShloMosaic.Lib.ValueIdx

noncomputable section

namespace Cert.Spec

open Idealize.ShloMosaic Idealize.ShloMosaic.ValueIdx

/-- One node's dense stage at output feature q. -/
def rowConv (a x : Fin 128 → EReal) (wr : (⟨2, ![128, 128]⟩ : Shape).Idx → EReal) (b : Fin 128 → EReal)
    (wo : (⟨2, ![128, 128]⟩ : Shape).Idx → EReal) (q : Fin 128) : EReal :=
  (∑ k : Fin 128, a k * wr (ix2 k q)) + b q + ∑ k : Fin 128, x k * wo (ix2 k q)

/-- One label edge's hidden unit j before the rectifier. -/
def rowHid (zs zd : Fin 128 → EReal) (e : EReal) (ws wd : (⟨2, ![128, 64]⟩ : Shape).Idx → EReal)
    (ww b1 : Fin 64 → EReal) (j : Fin 64) : EReal :=
  (∑ k : Fin 128, zs k * ws (ix2 k j)) + (∑ k : Fin 128, zd k * wd (ix2 k j)) + e * ww j + b1 j

/-- One label edge's score. -/
def rowDec (zs zd : Fin 128 → EReal) (e : EReal) (ws wd : (⟨2, ![128, 64]⟩ : Shape).Idx → EReal)
    (ww b1 : Fin 64 → EReal) (w2 : Fin 64 → EReal) (b2 : EReal) : EReal :=
  (∑ j : Fin 64, max (rowHid zs zd e ws wd ww b1 j) 0 * w2 j) + b2

/-- s · (1 / c) = s / c off c = 0, on all extended reals. -/
theorem mul_div_one (s c : EReal) (hc : c ≠ 0) : s * Ideal.div 1 c = Ideal.div s c := by
  unfold Ideal.div
  rw [if_neg hc, if_neg hc, one_mul]

/-- A count clamped below by one is not zero. -/
theorem max_one_ne_zero (c : EReal) : max c 1 ≠ 0 := by
  intro h
  have h1 : (1 : EReal) ≤ max c 1 := le_max_right _ _
  rw [h] at h1
  exact absurd h1 (not_le.mpr (by exact_mod_cast (zero_lt_one : (0 : ℝ) < 1)))

/-- A sum over 257 positions is the sum over the first 128, the next 128, and the last one. -/
theorem sum_257 {M : Type*} [AddCommMonoid M] (f : Fin 257 → M) :
    ∑ k : Fin 257, f k
      = (∑ k : Fin 128, f ⟨k.val, by have := k.isLt; omega⟩)
        + (∑ k : Fin 128, f ⟨128 + k.val, by have := k.isLt; omega⟩) + f ⟨256, by omega⟩ := by
  rw [show (∑ k : Fin 257, f k) = ∑ k : Fin (256 + 1), f k from rfl, Fin.sum_univ_castSucc]
  rw [show (∑ k : Fin 256, f (Fin.castSucc k)) = ∑ k : Fin (128 + 128), f (Fin.castSucc k) from rfl, Fin.sum_univ_add]
  rfl

end Cert.Spec

end
-- ==== Proof.KPay.lean ====
/-
  What the three kernel bodies compute, read at one element of the output block.

  The GraphConv body (with and without the rectifier) at row p and feature q of its 5000-row block is the row
  arithmetic of the block's row p: the two products into a zero accumulator are sums over the 128 contracted
  positions, the bias row is broadcast over the rows, and the roundings to bf16 are the identity on exact values.
  The decoder body at row p of its 10000-row block is the decoder row arithmetic of that row.
-/
import proofs.«164888_j32607391711951_1_alg».proof.Proof.Gen.KernelIdeal.Skeleton
import proofs.«164888_j32607391711951_1_alg».proof.Proof.LibDot
import proofs.«164888_j32607391711951_1_alg».proof.Proof.Spec
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.Spec

/-- The kernels' dimension numbers are those of plain matrix products. -/
theorem dot_5000 : dot_S5000x128_S128x128_S5000x128_1_0_0_1_n_n = DotDims.plain 5000 128 128 := rfl
theorem dot_10000 : dot_S10000x128_S128x64_S10000x64_1_0_0_1_n_n = DotDims.plain 10000 128 64 := rfl
theorem dot_64 : dot_S10000x64_S64x1_S10000x1_1_0_0_1_n_n = DotDims.plain 10000 64 1 := rfl

/-- A column broadcast along the rows: an [a, 1] array broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The rectified GraphConv body at (p, q). -/
theorem pay0_apply (v0 v3 : Vec Ideal S5000x128 .f32) (v5 v7 : Vec Ideal S128x128 .f32) (v10 : Vec Ideal S1x128 .f32)
    (p : Fin 5000) (q : Fin 128) :
    k0_pay1 (F := Ideal) v0 v3 v5 v7 v10 (ix2 p q)
      = max (rowConv (fun k => v0 (ix2 p k)) (fun k => v3 (ix2 p k)) v5 (fun j => v10 (ix2 (0 : Fin 1) j)) v7 q) 0 := by
  unfold k0_pay1 rowConv
  simp only [maximumf_apply, addf_apply, broadcast_apply, shapeCast_self, dot_5000, matmul]
  rw [LibDot.matmul_plain_apply, LibDot.matmul_plain_apply, broadcastTo_1b_ab_apply]
  simp only [truncf_apply]
  exact congrArg (max _) Ideal.ofBits_zero_f32

/-- The GraphConv body without the rectifier at (p, q). -/
theorem pay1_apply (v0 v3 : Vec Ideal S5000x128 .f32) (v6 v8 : Vec Ideal S128x128 .f32) (v11 : Vec Ideal S1x128 .f32)
    (p : Fin 5000) (q : Fin 128) :
    k1_pay1 (F := Ideal) v0 v3 v6 v8 v11 (ix2 p q)
      = rowConv (fun k => v0 (ix2 p k)) (fun k => v3 (ix2 p k)) v6 (fun j => v11 (ix2 (0 : Fin 1) j)) v8 q := by
  unfold k1_pay1 rowConv
  simp only [addf_apply, shapeCast_self, dot_5000, matmul]
  rw [LibDot.matmul_plain_apply, LibDot.matmul_plain_apply, broadcastTo_1b_ab_apply]
  simp only [truncf_apply]

/-- The decoder body at row p (its one column). -/
theorem pay2_apply (v0 v3 : Vec Ideal S10000x128 .f32) (v6 v9 : Vec Ideal S128x64 .f32) (v15 : Vec Ideal S10000x1 .f32)
    (v17 v23 : Vec Ideal S1x64 .f32) (v30 : Vec Ideal S64x1 .f32) (v33 : Vec Ideal S1x1 .f32) (p : Fin 10000) (u : Fin 1) :
    k2_pay1 (F := Ideal) v0 v3 v6 v9 v15 v17 v23 v30 v33 (ix2 p u)
      = rowDec (fun k => v0 (ix2 p k)) (fun k => v3 (ix2 p k)) (v15 (ix2 p (0 : Fin 1))) v6 v9
          (fun j => v17 (ix2 (0 : Fin 1) j)) (fun j => v23 (ix2 (0 : Fin 1) j)) (fun j => v30 (ix2 j (0 : Fin 1))) (v33 (ix2 (0 : Fin 1) (0 : Fin 1))) := by
  have hu : u = 0 := Subsingleton.elim _ _
  subst hu
  unfold k2_pay1 rowDec rowHid
  simp only [addf_apply, shapeCast_self, dot_10000, dot_64, matmul]
  rw [LibDot.matmul_plain_apply, broadcastTo_1b_ab_apply]
  refine congrArg (· + _) (Finset.sum_congr rfl fun j _ => ?_)
  simp only [truncf_apply, maximumf_apply, addf_apply, mulf_apply, broadcast_apply]
  rw [LibDot.matmul_plain_apply, LibDot.matmul_plain_apply, broadcastTo_a1_ab_apply, broadcastTo_1b_ab_apply, broadcastTo_1b_ab_apply]
  simp only [truncf_apply]
  exact congrArg (fun z => max _ z * _) Ideal.ofBits_zero_f32

end Cert.KernelIdeal.Pay

end
-- ==== Proof.KArr0.lean ====
/-
  The output array of the first GraphConv layer's dense stage with its rectifier, as one function of the arrays the region is entered with.

  Grid point t of the twenty stages rows 5000·t … 5000·t + 4999 of the aggregated and of the own features, the two
  weight matrices and the bias row whole, and writes back the same rows of the output; the body's value at row p of
  its block is the row arithmetic of array row 5000·t + p.  The twenty blocks tile the 100000 rows, so the array
  after the region holds that arithmetic at every row.
-/
import proofs.«164888_j32607391711951_1_alg».proof.Proof.Gen.KernelIdeal.Frame
import proofs.«164888_j32607391711951_1_alg».proof.Proof.KPay

set_option maxRecDepth 16384

noncomputable section

namespace Cert.KernelIdeal.Arr0

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The dense stage on whole arrays: row i₀ of the output is the row arithmetic of row i₀ of the inputs. -/
def G0 (agg x : S100000x128.Idx → EReal) (wr : S128x128.Idx → EReal) (b : S1x128.Idx → EReal) (wo : S128x128.Idx → EReal) :
    S100000x128.Idx → EReal :=
  fun i => max (rowConv (fun k => agg (ix2 (i 0) k)) (fun k => x (ix2 (i 0) k)) wr (fun j => b (ix2 (0 : Fin 1) j)) wo (i 1)) 0

/-- The body's value on blocks that are rows 5000·t … of the arrays is the stage at those rows. -/
theorem block_eq (x0 x1 : Vec Ideal S5000x128 .f32) (x2 : Vec Ideal S128x128 .f32) (x3 : Vec Ideal S1x128 .f32) (x4 : Vec Ideal S128x128 .f32)
    (agg x : S100000x128.Idx → EReal) (wr : S128x128.Idx → EReal) (b : S1x128.Idx → EReal) (wo : S128x128.Idx → EReal)
    (i : S100000x128.Idx) (p : Fin 5000) (q : Fin 128) (hi0 : (i 0).val = (i 0).val) (hq : i 1 = q)
    (h0 : ∀ k : Fin 128, x0 (ix2 p k) = agg (ix2 (i 0) k)) (h1 : ∀ k : Fin 128, x1 (ix2 p k) = x (ix2 (i 0) k))
    (h2 : x2 = wr) (h3 : x3 = b) (h4 : x4 = wo) :
    k0_pay1 (F := Ideal) x0 x1 x2 x4 x3 (ix2 p q) = G0 agg x wr b wo i := by
  rw [pay0_apply]
  unfold G0
  simp only [h0, h1, h2, h3, h4, hq]

/-- The printed index maps over the grid: the row windows are at block (t, 0), the resident ones at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

variable (V : (c : Dev nD) → (b : Ref sig .tc) → Buf (Elt Ideal) ((c : Thread nD τ).loc b))

/-- What point t writes back is block t of the stage on the arrays the region is entered with. -/
theorem flushed_eq (c : Dev nD) (t : Fin cfg0.N) :
    (dat0 V c).flushed 5 t = ((cfg0.win 5).blk t).view.read (Elt Ideal) (G0 (V c main_v27) (V c main_arg0) (V c main_arg5) (V c main_v28) (V c main_arg7)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, ht⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = G0 (V c main_v27) (V c main_arg0) (V c main_arg5) (V c main_v28) (V c main_arg7) (((cfg0.win 5).blk t).view.emb (ix2 p q))
  have hp : p.val < 5000 := p.isLt
  have hq : q.val < 128 := q.isLt
  refine block_eq (iblk0 V c 0 t) (iblk0 V c 1 t) (iblk0 V c 2 t) (iblk0 V c 3 t) (iblk0 V c 4 t)
    (V c main_v27) (V c main_arg0) (V c main_arg5) (V c main_v28) (V c main_arg7) (((cfg0.win 5).blk t).view.emb (ix2 p q)) p q rfl ?_ ?_ ?_ ?_ ?_ ?_
  · apply Fin.ext
    show win0_5.index t (1 : Fin 2) * 128 + 1 * q.val = q.val
    omega
  · intro k
    have hk : k.val < 128 := k.isLt
    show V c main_v27 (((cfg0.win 0).blk t).view.emb (ix2 p k)) = V c main_v27 _
    refine congrArg (V c main_v27) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    have hk : k.val < 128 := k.isLt
    show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · funext y
    show V c main_arg5 (((cfg0.win 2).blk t).view.emb y) = V c main_arg5 y
    refine congrArg (V c main_arg5) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v28 (((cfg0.win 3).blk t).view.emb y) = V c main_v28 y
    refine congrArg (V c main_v28) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg7 (((cfg0.win 4).blk t).view.emb y) = V c main_arg7 y
    refine congrArg (V c main_arg7) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The twenty row blocks cover the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region. -/
theorem arr (c : Dev nD) :
    (dat0 V c).arrAt 5 cfg0.N = G0 (V c main_v27) (V c main_arg0) (V c main_arg5) (V c main_v28) (V c main_arg7) :=
  (dat0 V c).arrAt_eq_of_cover 5 _ (fun t _ => flushed_eq V c t) cover

end Cert.KernelIdeal.Arr0

end
-- ==== Proof.KArr1.lean ====
/-
  The output array of the second GraphConv layer's dense stage, as one function of the arrays the region is entered with.

  Grid point t of the twenty stages rows 5000·t … 5000·t + 4999 of the aggregated and of the own features, the two
  weight matrices and the bias row whole, and writes back the same rows of the output; the body's value at row p of
  its block is the row arithmetic of array row 5000·t + p.  The twenty blocks tile the 100000 rows, so the array
  after the region holds that arithmetic at every row.
-/
import proofs.«164888_j32607391711951_1_alg».proof.Proof.Gen.KernelIdeal.Frame
import proofs.«164888_j32607391711951_1_alg».proof.Proof.KPay

set_option maxRecDepth 16384

noncomputable section

namespace Cert.KernelIdeal.Arr1

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The dense stage on whole arrays: row i₀ of the output is the row arithmetic of row i₀ of the inputs. -/
def G1 (agg x : S100000x128.Idx → EReal) (wr : S128x128.Idx → EReal) (b : S1x128.Idx → EReal) (wo : S128x128.Idx → EReal) :
    S100000x128.Idx → EReal :=
  fun i => rowConv (fun k => agg (ix2 (i 0) k)) (fun k => x (ix2 (i 0) k)) wr (fun j => b (ix2 (0 : Fin 1) j)) wo (i 1)

/-- The body's value on blocks that are rows 5000·t … of the arrays is the stage at those rows. -/
theorem block_eq (x0 x1 : Vec Ideal S5000x128 .f32) (x2 : Vec Ideal S128x128 .f32) (x3 : Vec Ideal S1x128 .f32) (x4 : Vec Ideal S128x128 .f32)
    (agg x : S100000x128.Idx → EReal) (wr : S128x128.Idx → EReal) (b : S1x128.Idx → EReal) (wo : S128x128.Idx → EReal)
    (i : S100000x128.Idx) (p : Fin 5000) (q : Fin 128) (hi0 : (i 0).val = (i 0).val) (hq : i 1 = q)
    (h0 : ∀ k : Fin 128, x0 (ix2 p k) = agg (ix2 (i 0) k)) (h1 : ∀ k : Fin 128, x1 (ix2 p k) = x (ix2 (i 0) k))
    (h2 : x2 = wr) (h3 : x3 = b) (h4 : x4 = wo) :
    k1_pay1 (F := Ideal) x0 x1 x2 x4 x3 (ix2 p q) = G1 agg x wr b wo i := by
  rw [pay1_apply]
  unfold G1
  simp only [h0, h1, h2, h3, h4, hq]

/-- The printed index maps over the grid: the row windows are at block (t, 0), the resident ones at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 20 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

variable (V : (c : Dev nD) → (b : Ref sig .tc) → Buf (Elt Ideal) ((c : Thread nD τ).loc b))

/-- What point t writes back is block t of the stage on the arrays the region is entered with. -/
theorem flushed_eq (c : Dev nD) (t : Fin cfg1.N) :
    (dat1 V c).flushed 5 t = ((cfg1.win 5).blk t).view.read (Elt Ideal) (G1 (V c main_v44) (V c main_v29) (V c main_arg8) (V c main_v45) (V c main_arg10)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, ht⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = G1 (V c main_v44) (V c main_v29) (V c main_arg8) (V c main_v45) (V c main_arg10) (((cfg1.win 5).blk t).view.emb (ix2 p q))
  have hp : p.val < 5000 := p.isLt
  have hq : q.val < 128 := q.isLt
  refine block_eq (iblk1 V c 0 t) (iblk1 V c 1 t) (iblk1 V c 2 t) (iblk1 V c 3 t) (iblk1 V c 4 t)
    (V c main_v44) (V c main_v29) (V c main_arg8) (V c main_v45) (V c main_arg10) (((cfg1.win 5).blk t).view.emb (ix2 p q)) p q rfl ?_ ?_ ?_ ?_ ?_ ?_
  · apply Fin.ext
    show win1_5.index t (1 : Fin 2) * 128 + 1 * q.val = q.val
    omega
  · intro k
    have hk : k.val < 128 := k.isLt
    show V c main_v44 (((cfg1.win 0).blk t).view.emb (ix2 p k)) = V c main_v44 _
    refine congrArg (V c main_v44) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    have hk : k.val < 128 := k.isLt
    show V c main_v29 (((cfg1.win 1).blk t).view.emb (ix2 p k)) = V c main_v29 _
    refine congrArg (V c main_v29) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · funext y
    show V c main_arg8 (((cfg1.win 2).blk t).view.emb y) = V c main_arg8 y
    refine congrArg (V c main_arg8) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v45 (((cfg1.win 3).blk t).view.emb y) = V c main_v45 y
    refine congrArg (V c main_v45) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_arg10 (((cfg1.win 4).blk t).view.emb y) = V c main_arg10 y
    refine congrArg (V c main_arg10) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega

/-- An index of the output array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- The twenty row blocks cover the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region. -/
theorem arr (c : Dev nD) :
    (dat1 V c).arrAt 5 cfg1.N = G1 (V c main_v44) (V c main_v29) (V c main_arg8) (V c main_v45) (V c main_arg10) :=
  (dat1 V c).arrAt_eq_of_cover 5 _ (fun t _ => flushed_eq V c t) cover

end Cert.KernelIdeal.Arr1

end
-- ==== Proof.KArr2.lean ====
/-
  The output array of the decoder, as one function of the arrays the region is entered with.

  Grid point t of the fifty stages rows 10000·t … 10000·t + 9999 of the two gathered endpoint embeddings and of the
  edge weight column, the five small weight and bias arrays whole, and writes back the same rows of the score
  column; the body's value at row p of its block is the decoder row arithmetic of array row 10000·t + p.  The fifty
  blocks tile the 500000 rows.
-/
import proofs.«164888_j32607391711951_1_alg».proof.Proof.Gen.KernelIdeal.Frame
import proofs.«164888_j32607391711951_1_alg».proof.Proof.KPay

set_option maxRecDepth 16384

noncomputable section

namespace Cert.KernelIdeal.Arr2

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The decoder on whole arrays: row i₀ of the score column is the decoder row arithmetic of row i₀ of the inputs. -/
def G2 (zs zd : S500000x128.Idx → EReal) (e : S500000x1.Idx → EReal) (ws wd : S128x64.Idx → EReal) (ww b1 : S1x64.Idx → EReal)
    (w2 : S64x1.Idx → EReal) (b2 : S1x1.Idx → EReal) : S500000x1.Idx → EReal :=
  fun i => rowDec (fun k => zs (ix2 (i 0) k)) (fun k => zd (ix2 (i 0) k)) (e (ix2 (i 0) (0 : Fin 1))) ws wd
    (fun j => ww (ix2 (0 : Fin 1) j)) (fun j => b1 (ix2 (0 : Fin 1) j)) (fun j => w2 (ix2 j (0 : Fin 1))) (b2 (ix2 (0 : Fin 1) (0 : Fin 1)))

/-- The body's value on blocks that are rows 10000·t … of the arrays is the decoder at those rows. -/
theorem block_eq (x0 x1 : Vec Ideal S10000x128 .f32) (x2 : Vec Ideal S10000x1 .f32) (x3 x4 : Vec Ideal S128x64 .f32)
    (x5 x6 : Vec Ideal S1x64 .f32) (x7 : Vec Ideal S64x1 .f32) (x8 : Vec Ideal S1x1 .f32)
    (zs zd : S500000x128.Idx → EReal) (e : S500000x1.Idx → EReal) (ws wd : S128x64.Idx → EReal) (ww b1 : S1x64.Idx → EReal)
    (w2 : S64x1.Idx → EReal) (b2 : S1x1.Idx → EReal)
    (i : S500000x1.Idx) (p : Fin 10000) (u : Fin 1)
    (h0 : ∀ k : Fin 128, x0 (ix2 p k) = zs (ix2 (i 0) k)) (h1 : ∀ k : Fin 128, x1 (ix2 p k) = zd (ix2 (i 0) k))
    (h2 : x2 (ix2 p (0 : Fin 1)) = e (ix2 (i 0) (0 : Fin 1)))
    (h3 : x3 = ws) (h4 : x4 = wd) (h5 : x5 = ww) (h6 : x6 = b1) (h7 : x7 = w2) (h8 : x8 = b2) :
    k2_pay1 (F := Ideal) x0 x1 x3 x4 x2 x5 x6 x7 x8 (ix2 p u) = G2 zs zd e ws wd ww b1 w2 b2 i := by
  rw [pay2_apply]
  unfold G2
  simp only [h0, h1, h2, h3, h4, h5, h6, h7, h8]

/-- The printed index maps over the grid: the row windows are at block (t, 0), the resident ones at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 ∧ t.val < 50 :=
  (by decide +kernel : ∀ t : Fin grid2.N, _)

/-- Every row block is some point's. -/
theorem idx_onto : ∀ q0 : Fin 50, ∃ t : Fin cfg2.N, win2_9.index t = ![q0.val, 0] :=
  (by decide +kernel : ∀ q0 : Fin 50, ∃ t : Fin grid2.N, win2_9.index t = ![q0.val, 0])

variable (V : (c : Dev nD) → (b : Ref sig .tc) → Buf (Elt Ideal) ((c : Thread nD τ).loc b))

set_option maxHeartbeats 1600000 in
/-- What point t writes back is block t of the decoder on the arrays the region is entered with. -/
theorem flushed_eq (c : Dev nD) (t : Fin cfg2.N) :
    (dat2 V c).flushed 9 t = ((cfg2.win 9).blk t).view.read (Elt Ideal)
      (G2 (V c main_v55) (V c main_v64) (V c main_v65) (V c main_v66) (V c main_v67) (V c main_v68) (V c main_v69) (V c main_arg13) (V c main_v70)) := by
  show (cfg2.win 9).cut (grid2.coords t) ((dat2 V c).after 9 t) = _
  rw [after2_9]
  unfold out2_9
  rw [View.canon_unit_zero hz]
  simp only [View.ld_unit_zero (S := S10000x128) hz, View.ld_unit_zero (S := S10000x1) hz, View.ld_unit_zero (S := S128x64) hz,
    View.ld_unit_zero (S := S1x64) hz, View.ld_unit_zero (S := S64x1) hz, View.ld_unit_zero (S := S1x1) hz]
  obtain ⟨e00, e01, e10, e11, e20, e21, e30, e31, e40, e41, e50, e51, e60, e61, e70, e71, e80, e81, e90, e91, ht⟩ := idx_facts t
  funext j
  obtain ⟨p, u, rfl⟩ : ∃ (p : Fin 10000) (u : Fin 1), j = ix2 p u := ⟨j 0, j 1, eq_ix2 j⟩
  show k2_pay1 (F := Ideal) (iblk2 V c 0 t) (iblk2 V c 1 t) (iblk2 V c 3 t) (iblk2 V c 4 t) (iblk2 V c 2 t) (iblk2 V c 5 t) (iblk2 V c 6 t) (iblk2 V c 7 t) (iblk2 V c 8 t) (ix2 p u)
    = G2 (V c main_v55) (V c main_v64) (V c main_v65) (V c main_v66) (V c main_v67) (V c main_v68) (V c main_v69) (V c main_arg13) (V c main_v70) (((cfg2.win 9).blk t).view.emb (ix2 p u))
  have hp : p.val < 10000 := p.isLt
  refine block_eq (iblk2 V c 0 t) (iblk2 V c 1 t) (iblk2 V c 2 t) (iblk2 V c 3 t) (iblk2 V c 4 t) (iblk2 V c 5 t) (iblk2 V c 6 t) (iblk2 V c 7 t) (iblk2 V c 8 t)
    (V c main_v55) (V c main_v64) (V c main_v65) (V c main_v66) (V c main_v67) (V c main_v68) (V c main_v69) (V c main_arg13) (V c main_v70)
    (((cfg2.win 9).blk t).view.emb (ix2 p u)) p u ?_ ?_ ?_ ?_ ?_ ?_ ?_ ?_ ?_
  · intro k
    have hk : k.val < 128 := k.isLt
    show V c main_v55 (((cfg2.win 0).blk t).view.emb (ix2 p k)) = V c main_v55 _
    refine congrArg (V c main_v55) (funext fun a => Fin.ext ?_)
    match a with
    | ⟨0, _⟩ => show win2_0.index t (0 : Fin 2) * 10000 + 1 * p.val = win2_9.index t (0 : Fin 2) * 10000 + 1 * p.val; omega
    | ⟨1, _⟩ => show win2_0.index t (1 : Fin 2) * 128 + 1 * k.val = k.val; omega
  · intro k
    have hk : k.val < 128 := k.isLt
    show V c main_v64 (((cfg2.win 1).blk t).view.emb (ix2 p k)) = V c main_v64 _
    refine congrArg (V c main_v64) (funext fun a => Fin.ext ?_)
    match a with
    | ⟨0, _⟩ => show win2_1.index t (0 : Fin 2) * 10000 + 1 * p.val = win2_9.index t (0 : Fin 2) * 10000 + 1 * p.val; omega
    | ⟨1, _⟩ => show win2_1.index t (1 : Fin 2) * 128 + 1 * k.val = k.val; omega
  · show V c main_v65 (((cfg2.win 2).blk t).view.emb (ix2 p (0 : Fin 1))) = V c main_v65 _
    refine congrArg (V c main_v65) (funext fun a => Fin.ext ?_)
    match a with
    | ⟨0, _⟩ => show win2_2.index t (0 : Fin 2) * 10000 + 1 * p.val = win2_9.index t (0 : Fin 2) * 10000 + 1 * p.val; omega
    | ⟨1, _⟩ => show win2_2.index t (1 : Fin 2) * 1 + 1 * 0 = 0; omega
  · funext y
    show V c main_v66 (((cfg2.win 3).blk t).view.emb y) = V c main_v66 y
    refine congrArg (V c main_v66) (funext fun a => Fin.ext ?_)
    match a with
    | ⟨0, _⟩ => show win2_3.index t (0 : Fin 2) * 128 + 1 * (y 0).val = (y 0).val; omega
    | ⟨1, _⟩ => show win2_3.index t (1 : Fin 2) * 64 + 1 * (y 1).val = (y 1).val; omega
  · funext y
    show V c main_v67 (((cfg2.win 4).blk t).view.emb y) = V c main_v67 y
    refine congrArg (V c main_v67) (funext fun a => Fin.ext ?_)
    match a with
    | ⟨0, _⟩ => show win2_4.index t (0 : Fin 2) * 128 + 1 * (y 0).val = (y 0).val; omega
    | ⟨1, _⟩ => show win2_4.index t (1 : Fin 2) * 64 + 1 * (y 1).val = (y 1).val; omega
  · funext y
    show V c main_v68 (((cfg2.win 5).blk t).view.emb y) = V c main_v68 y
    refine congrArg (V c main_v68) (funext fun a => Fin.ext ?_)
    match a with
    | ⟨0, _⟩ => show win2_5.index t (0 : Fin 2) * 1 + 1 * (y 0).val = (y 0).val; omega
    | ⟨1, _⟩ => show win2_5.index t (1 : Fin 2) * 64 + 1 * (y 1).val = (y 1).val; omega
  · funext y
    show V c main_v69 (((cfg2.win 6).blk t).view.emb y) = V c main_v69 y
    refine congrArg (V c main_v69) (funext fun a => Fin.ext ?_)
    match a with
    | ⟨0, _⟩ => show win2_6.index t (0 : Fin 2) * 1 + 1 * (y 0).val = (y 0).val; omega
    | ⟨1, _⟩ => show win2_6.index t (1 : Fin 2) * 64 + 1 * (y 1).val = (y 1).val; omega
  · funext y
    show V c main_arg13 (((cfg2.win 7).blk t).view.emb y) = V c main_arg13 y
    refine congrArg (V c main_arg13) (funext fun a => Fin.ext ?_)
    match a with
    | ⟨0, _⟩ => show win2_7.index t (0 : Fin 2) * 64 + 1 * (y 0).val = (y 0).val; omega
    | ⟨1, _⟩ => show win2_7.index t (1 : Fin 2) * 1 + 1 * (y 1).val = (y 1).val; omega
  · funext y
    show V c main_v70 (((cfg2.win 8).blk t).view.emb y) = V c main_v70 y
    refine congrArg (V c main_v70) (funext fun a => Fin.ext ?_)
    match a with
    | ⟨0, _⟩ => show win2_8.index t (0 : Fin 2) * 1 + 1 * (y 0).val = (y 0).val; omega
    | ⟨1, _⟩ => show win2_8.index t (1 : Fin 2) * 1 + 1 * (y 1).val = (y 1).val; omega

/-- An index of the output array is in point t's block iff each coordinate is in the block's range on its axis. -/
theorem mem_blk (t : Fin cfg2.N) (i : S500000x1.Idx) :
    i ∈ ((cfg2.win 9).blk t).view.set ↔ ∀ a : Fin 2, win2_9.index t a * S10000x1.size a ≤ (i a).val ∧ (i a).val < win2_9.index t a * S10000x1.size a + S10000x1.size a := by
  show i ∈ ((View.whole main_v71).slice (win2_9.rect t)).set ↔ _
  rw [View.set_slice_whole, Rect.mem_set_unit]
  exact Iff.rfl

/-- The fifty row blocks cover the array. -/
theorem cover (i : S500000x1.Idx) : ∃ t : Fin cfg2.N, (cfg2.win 9).flush t = true ∧ i ∈ ((cfg2.win 9).blk t).view.set := by
  have hi0 : (i 0).val < 500000 := (i 0).isLt
  have hi1 : (i 1).val < 1 := (i 1).isLt
  obtain ⟨t, ht⟩ := idx_onto ⟨(i 0).val / 10000, by omega⟩
  have q0 : win2_9.index t (0 : Fin 2) = (i 0).val / 10000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 10000 ≤ (i 0).val ∧ (i 0).val < win2_9.index t (0 : Fin 2) * 10000 + 10000; omega
  | ⟨1, _⟩ => show win2_9.index t (1 : Fin 2) * 1 ≤ (i 1).val ∧ (i 1).val < win2_9.index t (1 : Fin 2) * 1 + 1; omega

/-- The output array after the region. -/
theorem arr (c : Dev nD) :
    (dat2 V c).arrAt 9 cfg2.N = G2 (V c main_v55) (V c main_v64) (V c main_v65) (V c main_v66) (V c main_v67) (V c main_v68) (V c main_v69) (V c main_arg13) (V c main_v70) :=
  (dat2 V c).arrAt_eq_of_cover 9 _ (fun t _ => flushed_eq V c t) cover

end Cert.KernelIdeal.Arr2

end
-- ==== Proof.RSpec.lean ====
/-
  The reference program's result, cut into its stages.

  The mean aggregation of a feature array over the edge list (rows gathered at the sources, scaled by the edge
  weights, summed into the destinations, divided by the in-degree clamped below by one), the dense GraphConv stage
  (two matrix products and a bias), the rectifier, the gather of the label edges' endpoint embeddings and the
  decoder (the concatenated features times the first decoder matrix, bias, rectifier, the second matrix, bias) are
  each named as a function of their operands; the program's result term is their composition, by unfolding.
-/
import proofs.«164888_j32607391711951_1_alg».proof.Proof.Gen.ReferenceIdeal.Run
import Idealize.ShloMosaic.PureOps.Ideal

set_option maxRecDepth 16384

noncomputable section

namespace Cert.ReferenceIdeal.Spec

open Cert.ReferenceIdeal Cert.ReferenceIdeal.Gen
open Idealize.ShloMosaic Idealize.ShloMosaic.TcCoe Idealize.SL.Sem

abbrev IArr (s : Shape) := IVec s 32
abbrev FArr (s : Shape) := FVec Ideal s .f32

/-- The two rows of the [2, E] edge index array, as vectors: sources and destinations. -/
def srcRow (ei : IArr S2x1600000) : IArr S1600000 :=
  shapeCast _ (extractStridedSlice S1x1600000 ![0, 0] ei slices_S2x1600000_S1x1600000_0_0) shapeCasts_S1x1600000_S1600000
def dstRow (ei : IArr S2x1600000) : IArr S1600000 :=
  shapeCast _ (extractStridedSlice S1x1600000 ![1, 0] ei slices_S2x1600000_S1x1600000_1_0) shapeCasts_S1x1600000_S1600000

/-- The gather's start indices: a negative node index wrapped once by the node count, as a column. -/
def wrapIdx (e : IArr S1600000) : IArr S1600000x1 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- The scatter's indices: the destinations as a column. -/
def colIdx (e : IArr S1600000) : IArr S1600000x1 :=
  broadcastInDim S1600000x1 ![0] bcast_S1600000_S1600000x1_0 e

/-- The in-degree of every node, clamped below by one. -/
def cnt (ei : IArr S2x1600000) : FArr S100000 :=
  maximumf
    (Host.scatterAdd scatter_S100000_S1600000x1_S1600000_n_0_0_1
      (broadcastInDim S100000 ![] bcast_S_S100000 (constant (F := Ideal) S_ .f32 0x00000000#32))
      (colIdx (dstRow ei))
      (broadcastInDim S1600000 ![] bcast_S_S1600000 (constant (F := Ideal) S_ .f32 0x3F800000#32)))
    (broadcastInDim S100000 ![] bcast_S_S100000 (constant (F := Ideal) S_ .f32 0x3F800000#32))

/-- The weighted messages summed into their destinations. -/
def segSum (feat : FArr S100000x128) (ei : IArr S2x1600000) (ew : FArr S1600000) : FArr S100000x128 :=
  Host.scatterAdd scatter_S100000x128_S1600000x1_S1600000x128_1_0_0_1
    (broadcastInDim S100000x128 ![] bcast_S_S100000x128 (constant (F := Ideal) S_ .f32 0x00000000#32))
    (colIdx (dstRow ei))
    (mulf (Host.gather gather_S100000x128_S1600000x1_S1600000x128_1_0_n_n_0_1_1128 feat (wrapIdx (srcRow ei)))
      (broadcastInDim S1600000x128 ![0, 1] bcast_S1600000x1_S1600000x128_0_1
        (broadcastInDim S1600000x1 ![0] bcast_S1600000_S1600000x1_0 ew)))

/-- The two rows of the [2, L] label edge index array. -/
def lblRow0 (eli : IArr S2x500000) : IArr S500000 :=
  shapeCast _ (extractStridedSlice S1x500000 ![0, 0] eli slices_S2x500000_S1x500000_0_0) shapeCasts_S1x500000_S500000
def lblRow1 (eli : IArr S2x500000) : IArr S500000 :=
  shapeCast _ (extractStridedSlice S1x500000 ![1, 0] eli slices_S2x500000_S1x500000_1_0) shapeCasts_S1x500000_S500000

/-- The embedding rows of the label edges' endpoints (a negative index wrapped once). -/
def gatherLbl (z : FArr S100000x128) (e : IArr S500000) : FArr S500000x128 :=
  Host.gather gather_S100000x128_S500000x1_S500000x128_1_0_n_n_0_1_1128 z
    (broadcastInDim S500000x1 ![0] bcast_S500000_S500000x1_0
      (select (cmpi .slt e (broadcastInDim S500000 ![] bcast_S_S500000 (constantI S_ 32 0#32)))
        (addi e (broadcastInDim S500000 ![] bcast_S_S500000 (constantI S_ 32 100000#32))) e))

/-- The mean aggregation as the reference takes it: the sum divided by the clamped count. -/
def agg (feat : FArr S100000x128) (ei : IArr S2x1600000) (ew : FArr S1600000) : FArr S100000x128 :=
  Host.divf (segSum feat ei ew)
    (broadcastInDim S100000x128 ![0, 1] bcast_S100000x1_S100000x128_0_1
      (broadcastInDim S100000x1 ![0] bcast_S100000_S100000x1_0 (cnt ei)))

/-- The dense GraphConv stage: a · W_rel + b + x · W_root. -/
def conv (a x : FArr S100000x128) (wr : FArr S128x128) (b : FArr S128) (wo : FArr S128x128) : FArr S100000x128 :=
  addf (addf (Host.dotGeneral dot_S100000x128_S128x128_S100000x128_1_0_0_1_n_n none a wr)
      (broadcastInDim S100000x128 ![0, 1] bcast_S1x128_S100000x128_0_1 (broadcastInDim S1x128 ![1] bcast_S128_S1x128_1 b)))
    (Host.dotGeneral dot_S100000x128_S128x128_S100000x128_1_0_0_1_n_n none x wo)

/-- The rectifier on a node feature array. -/
def relu (v : FArr S100000x128) : FArr S100000x128 :=
  maximumf v (broadcastInDim S100000x128 ![] bcast_S_S100000x128 (constant (F := Ideal) S_ .f32 0x00000000#32))

/-- The decoder on the gathered endpoint embeddings and the explicit weights. -/
def dec (zs zd : FArr S500000x128) (e : FArr S500000) (w1 : FArr S257x64) (b1 : FArr S64) (w2 : FArr S64x1) (b2 : FArr S1) :
    FArr S500000x1 :=
  addf (Host.dotGeneral dot_S500000x64_S64x1_S500000x1_1_0_0_1_n_n none
      (maximumf (addf (Host.dotGeneral dot_S500000x257_S257x64_S500000x64_1_0_0_1_n_n none
            (concatenate S500000x257 1 [⟨S500000x128, zs⟩, ⟨S500000x128, zd⟩,
              ⟨S500000x1, broadcastInDim S500000x1 ![0] bcast_S500000_S500000x1_0 e⟩] concatenates_S500000x128_S500000x128_S500000x1_S500000x257_d1) w1)
          (broadcastInDim S500000x64 ![0, 1] bcast_S1x64_S500000x64_0_1 (broadcastInDim S1x64 ![1] bcast_S64_S1x64_1 b1)))
        (broadcastInDim S500000x64 ![] bcast_S_S500000x64 (constant (F := Ideal) S_ .f32 0x00000000#32))) w2)
    (broadcastInDim S500000x1 ![0, 1] bcast_S1x1_S500000x1_0_1 (broadcastInDim S1x1 ![1] bcast_S1_S1x1_1 b2))

/-- The hidden node features: the first layer, rectified. -/
def hid (x : FArr S100000x128) (ei : IArr S2x1600000) (ew : FArr S1600000) (w1r : FArr S128x128) (b1 : FArr S128) (w1o : FArr S128x128) :
    FArr S100000x128 :=
  relu (conv (agg x ei ew) x w1r b1 w1o)

/-- The node embeddings: the second layer over the hidden features. -/
def emb (x : FArr S100000x128) (ei : IArr S2x1600000) (ew : FArr S1600000) (w1r : FArr S128x128) (b1 : FArr S128) (w1o : FArr S128x128)
    (w2r : FArr S128x128) (b2 : FArr S128) (w2o : FArr S128x128) : FArr S100000x128 :=
  conv (agg (hid x ei ew w1r b1 w1o) ei ew) (hid x ei ew w1r b1 w1o) w2r b2 w2o

/-- The program's result as a function of its fifteen arguments. -/
def final (x : FArr S100000x128) (ei : IArr S2x1600000) (ew : FArr S1600000) (eli : IArr S2x500000) (e : FArr S500000)
    (w1r : FArr S128x128) (b1 : FArr S128) (w1o : FArr S128x128) (w2r : FArr S128x128) (b2 : FArr S128) (w2o : FArr S128x128)
    (wd1 : FArr S257x64) (bd1 : FArr S64) (wd2 : FArr S64x1) (bd2 : FArr S1) : FArr S500000 :=
  shapeCast _ (dec (gatherLbl (emb x ei ew w1r b1 w1o w2r b2 w2o) (lblRow0 eli)) (gatherLbl (emb x ei ew w1r b1 w1o w2r b2 w2o) (lblRow1 eli))
    e wd1 bd1 wd2 bd2) shapeCasts_S500000x1_S500000

set_option maxHeartbeats 1000000 in
/-- The run's result term is that composition. -/
theorem res_eq (m : (ℓ : Loc nD τ sig) → Buf (Elt Ideal) ℓ) (c : Dev nD) :
    Value.res_main_v90 (F := Ideal) m c
      = final (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Value.res_main_v90
  rfl

end Cert.ReferenceIdeal.Spec

end
-- ==== Proof.KSpec.lean ====
/-
  The kernel program's stages, as functions of their operands.

  The mean aggregation is taken as the summed weighted messages times the reciprocal of the clamped in-degree; the
  hidden features and the embeddings are the two dense stages over it; the decoder reads the explicit weights as a
  column and the first decoder matrix in its three stretches of rows.  The program's result is their composition.
-/
import proofs.«164888_j32607391711951_1_alg».proof.Proof.KArr0
import proofs.«164888_j32607391711951_1_alg».proof.Proof.KArr1
import proofs.«164888_j32607391711951_1_alg».proof.Proof.KArr2
import proofs.«164888_j32607391711951_1_alg».proof.Proof.RSpec

noncomputable section

namespace Cert.KernelIdeal.Fold

open Cert.KernelIdeal Cert.KernelIdeal.Gen
open Idealize.ShloMosaic Idealize.ShloMosaic.TcCoe Idealize.SL.Sem
open Cert.ReferenceIdeal.Spec (IArr FArr srcRow dstRow cnt segSum gatherLbl lblRow0 lblRow1)

/-- One over the clamped in-degree, as a column. -/
def invCnt (ei : IArr S2x1600000) : FArr S100000x1 :=
  broadcastInDim S100000x1 ![0] bcast_S100000_S100000x1_0
    (Host.divf (broadcastInDim S100000 ![] bcast_S_S100000 (constant (F := Ideal) S_ .f32 0x3F800000#32)) (cnt ei))

/-- The mean aggregation as the kernel program takes it: the sum times the reciprocal of the clamped count. -/
def agg (feat : FArr S100000x128) (ei : IArr S2x1600000) (ew : FArr S1600000) : FArr S100000x128 :=
  mulf (segSum feat ei ew) (broadcastInDim S100000x128 ![0, 1] bcast_S100000x1_S100000x128_0_1 (invCnt ei))

/-- The hidden node features: region 0's output. -/
def hid (x : FArr S100000x128) (ei : IArr S2x1600000) (ew : FArr S1600000) (w1r : FArr S128x128) (b1 : FArr S128) (w1o : FArr S128x128) :
    FArr S100000x128 :=
  Arr0.G0 (agg x ei ew) x w1r (shapeCast _ b1 shapeCasts_S128_S1x128) w1o

/-- The node embeddings: region 1's output. -/
def emb (x : FArr S100000x128) (ei : IArr S2x1600000) (ew : FArr S1600000) (w1r : FArr S128x128) (b1 : FArr S128) (w1o : FArr S128x128)
    (w2r : FArr S128x128) (b2 : FArr S128) (w2o : FArr S128x128) : FArr S100000x128 :=
  Arr1.G1 (agg (hid x ei ew w1r b1 w1o) ei ew) (hid x ei ew w1r b1 w1o) w2r (shapeCast _ b2 shapeCasts_S128_S1x128) w2o

/-- The decoder region's output on given endpoint embeddings. -/
def dec (zs zd : FArr S500000x128) (e : FArr S500000) (wd1 : FArr S257x64) (bd1 : FArr S64) (wd2 : FArr S64x1) (bd2 : FArr S1) : FArr S500000x1 :=
  Arr2.G2 zs zd (broadcastInDim S500000x1 ![0] bcast_S500000_S500000x1_0 e)
    (extractStridedSlice S128x64 ![0, 0] wd1 slices_S257x64_S128x64_0_0) (extractStridedSlice S128x64 ![128, 0] wd1 slices_S257x64_S128x64_128_0)
    (extractStridedSlice S1x64 ![256, 0] wd1 slices_S257x64_S1x64_256_0) (shapeCast _ bd1 shapeCasts_S64_S1x64) wd2 (shapeCast _ bd2 shapeCasts_S1_S1x1)

/-- The program's result as a function of its fifteen arguments. -/
def final (x : FArr S100000x128) (ei : IArr S2x1600000) (ew : FArr S1600000) (eli : IArr S2x500000) (e : FArr S500000)
    (w1r : FArr S128x128) (b1 : FArr S128) (w1o : FArr S128x128) (w2r : FArr S128x128) (b2 : FArr S128) (w2o : FArr S128x128)
    (wd1 : FArr S257x64) (bd1 : FArr S64) (wd2 : FArr S64x1) (bd2 : FArr S1) : FArr S500000 :=
  shapeCast _ (dec (gatherLbl (emb x ei ew w1r b1 w1o w2r b2 w2o) (lblRow0 eli)) (gatherLbl (emb x ei ew w1r b1 w1o w2r b2 w2o) (lblRow1 eli))
    e wd1 bd1 wd2 bd2) shapeCasts_S500000x1_S500000

end Cert.KernelIdeal.Fold

end
-- ==== Proof.KFold.lean ====
/-
  The kernel program's buffers at every boundary of its run, read as functions of the fifteen arguments.

  Before each GraphConv region the host forms the mean aggregation of a feature array over the edge list, here as
  the summed weighted messages times the reciprocal of the clamped in-degree; the region then leaves the dense
  stage of that aggregation and the features.  Before the decoder the host gathers the two endpoint embeddings of
  every label edge, makes the explicit weights a column and cuts the first decoder matrix into its three stretches
  of rows; the decoder region leaves the score column, which the last host operation flattens.  Reading the
  boundaries in order gives the result buffer as one composition of these stages.
-/
import proofs.«164888_j32607391711951_1_alg».proof.Proof.Gen.KernelIdeal.Frame
import proofs.«164888_j32607391711951_1_alg».proof.Proof.KSpec
import Idealize.ShloMosaic.Lib.StableHlo.Run

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Spec (IArr FArr srcRow dstRow cnt segSum gatherLbl lblRow0 lblRow1)

variable (m : (ℓ : Loc nD τ sig) → Buf (Elt Ideal) ℓ) (ρ : Dev nD → PrngReg)

/-! ## After the first host stretch -/

theorem W1_v27 (c : Dev nD) : W1 m ρ c (Proc.devRef .tc main_v27) = agg (m ((c.tc : Thread nD τ).loc main_arg0)) (m ((c.tc : Thread nD τ).loc main_arg1)) (m ((c.tc : Thread nD τ).loc main_arg2)) := by
  show StableHlo.after hostOps0 (W0 m ρ c) (Proc.devRef .tc main_v27) = _
  after_results_simp
  rfl
theorem W1_v28 (c : Dev nD) : W1 m ρ c (Proc.devRef .tc main_v28) = shapeCast _ (m ((c.tc : Thread nD τ).loc main_arg6)) shapeCasts_S128_S1x128 := by
  show StableHlo.after hostOps0 (W0 m ρ c) (Proc.devRef .tc main_v28) = _
  after_results_simp <;> rfl
theorem W1_v1 (c : Dev nD) : W1 m ρ c (Proc.devRef .tc main_v1) = srcRow (m ((c.tc : Thread nD τ).loc main_arg1)) := by
  show StableHlo.after hostOps0 (W0 m ρ c) (Proc.devRef .tc main_v1) = _
  after_results_simp
  rfl
theorem W1_v3 (c : Dev nD) : W1 m ρ c (Proc.devRef .tc main_v3) = dstRow (m ((c.tc : Thread nD τ).loc main_arg1)) := by
  show StableHlo.after hostOps0 (W0 m ρ c) (Proc.devRef .tc main_v3) = _
  after_results_simp
  rfl
theorem W1_v12 (c : Dev nD) : W1 m ρ c (Proc.devRef .tc main_v12) = invCnt (m ((c.tc : Thread nD τ).loc main_arg1)) := by
  show StableHlo.after hostOps0 (W0 m ρ c) (Proc.devRef .tc main_v12) = _
  after_results_simp
  rfl
theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp <;> rfl
theorem W1_arg2 (c : Dev nD) : W1 m ρ c (Proc.devRef .tc main_arg2) = (m ((c.tc : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) = (m ((c.tc : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c.tc : Thread nD τ).loc main_arg4)) := by
  show StableHlo.after hostOps0 (W0 m ρ c) (Proc.devRef .tc main_arg4) = _
  after_results_simp <;> rfl
theorem W1_arg5 (c : Dev nD) : W1 m ρ c (Proc.devRef .tc main_arg5) = (m ((c.tc : Thread nD τ).loc main_arg5)) := by
  show StableHlo.after hostOps0 (W0 m ρ c) (Proc.devRef .tc main_arg5) = _
  after_results_simp <;> rfl
theorem W1_arg7 (c : Dev nD) : W1 m ρ c (Proc.devRef .tc main_arg7) = (m ((c.tc : Thread nD τ).loc main_arg7)) := by
  show StableHlo.after hostOps0 (W0 m ρ c) (Proc.devRef .tc main_arg7) = _
  after_results_simp <;> rfl
theorem W1_arg8 (c : Dev nD) : W1 m ρ c (Proc.devRef .tc main_arg8) = (m ((c.tc : Thread nD τ).loc main_arg8)) := by
  show StableHlo.after hostOps0 (W0 m ρ c) (Proc.devRef .tc main_arg8) = _
  after_results_simp <;> rfl
theorem W1_arg9 (c : Dev nD) : W1 m ρ c (Proc.devRef .tc main_arg9) = (m ((c.tc : Thread nD τ).loc main_arg9)) := by
  show StableHlo.after hostOps0 (W0 m ρ c) (Proc.devRef .tc main_arg9) = _
  after_results_simp <;> rfl
theorem W1_arg10 (c : Dev nD) : W1 m ρ c (Proc.devRef .tc main_arg10) = (m ((c.tc : Thread nD τ).loc main_arg10)) := by
  show StableHlo.after hostOps0 (W0 m ρ c) (Proc.devRef .tc main_arg10) = _
  after_results_simp <;> rfl
theorem W1_arg11 (c : Dev nD) : W1 m ρ c (Proc.devRef .tc main_arg11) = (m ((c.tc : Thread nD τ).loc main_arg11)) := by
  show StableHlo.after hostOps0 (W0 m ρ c) (Proc.devRef .tc main_arg11) = _
  after_results_simp <;> rfl
theorem W1_arg12 (c : Dev nD) : W1 m ρ c (Proc.devRef .tc main_arg12) = (m ((c.tc : Thread nD τ).loc main_arg12)) := by
  show StableHlo.after hostOps0 (W0 m ρ c) (Proc.devRef .tc main_arg12) = _
  after_results_simp <;> rfl
theorem W1_arg13 (c : Dev nD) : W1 m ρ c (Proc.devRef .tc main_arg13) = (m ((c.tc : Thread nD τ).loc main_arg13)) := by
  show StableHlo.after hostOps0 (W0 m ρ c) (Proc.devRef .tc main_arg13) = _
  after_results_simp <;> rfl
theorem W1_arg14 (c : Dev nD) : W1 m ρ c (Proc.devRef .tc main_arg14) = (m ((c.tc : Thread nD τ).loc main_arg14)) := by
  show StableHlo.after hostOps0 (W0 m ρ c) (Proc.devRef .tc main_arg14) = _
  after_results_simp <;> rfl

/-! ## After region 0 -/

theorem W2_v29 (c : Dev nD) : W2 m ρ c (Proc.devRef .tc main_v29) = hid (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  refine (W2_arr m ρ c 5).trans ((Arr0.arr (V1 m ρ) c).trans ?_)
  show Arr0.G0 (W1 m ρ c (Proc.devRef .tc main_v27)) (W1 m ρ c (Proc.devRef .tc main_arg0)) (W1 m ρ c (Proc.devRef .tc main_arg5)) (W1 m ρ c (Proc.devRef .tc main_v28)) (W1 m ρ c (Proc.devRef .tc main_arg7)) = _
  rw [W1_v27, W1_arg0, W1_arg5, W1_v28, W1_arg7]
  rfl
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v12 (c : Dev nD) : W2 m ρ c (Proc.devRef .tc main_v12) = W1 m ρ c (Proc.devRef .tc main_v12) := W2_of_ne m ρ c main_v12 (by decide)
theorem W2_arg2 (c : Dev nD) : W2 m ρ c (Proc.devRef .tc main_arg2) = W1 m ρ c (Proc.devRef .tc main_arg2) := W2_of_ne m ρ c main_arg2 (by decide)
theorem W2_arg3 (c : Dev nD) : W2 m ρ c (Proc.devRef .tc main_arg3) = W1 m ρ c (Proc.devRef .tc main_arg3) := W2_of_ne m ρ c main_arg3 (by decide)
theorem W2_arg4 (c : Dev nD) : W2 m ρ c (Proc.devRef .tc main_arg4) = W1 m ρ c (Proc.devRef .tc main_arg4) := W2_of_ne m ρ c main_arg4 (by decide)
theorem W2_arg8 (c : Dev nD) : W2 m ρ c (Proc.devRef .tc main_arg8) = W1 m ρ c (Proc.devRef .tc main_arg8) := W2_of_ne m ρ c main_arg8 (by decide)
theorem W2_arg9 (c : Dev nD) : W2 m ρ c (Proc.devRef .tc main_arg9) = W1 m ρ c (Proc.devRef .tc main_arg9) := W2_of_ne m ρ c main_arg9 (by decide)
theorem W2_arg10 (c : Dev nD) : W2 m ρ c (Proc.devRef .tc main_arg10) = W1 m ρ c (Proc.devRef .tc main_arg10) := W2_of_ne m ρ c main_arg10 (by decide)
theorem W2_arg11 (c : Dev nD) : W2 m ρ c (Proc.devRef .tc main_arg11) = W1 m ρ c (Proc.devRef .tc main_arg11) := W2_of_ne m ρ c main_arg11 (by decide)
theorem W2_arg12 (c : Dev nD) : W2 m ρ c (Proc.devRef .tc main_arg12) = W1 m ρ c (Proc.devRef .tc main_arg12) := W2_of_ne m ρ c main_arg12 (by decide)
theorem W2_arg13 (c : Dev nD) : W2 m ρ c (Proc.devRef .tc main_arg13) = W1 m ρ c (Proc.devRef .tc main_arg13) := W2_of_ne m ρ c main_arg13 (by decide)
theorem W2_arg14 (c : Dev nD) : W2 m ρ c (Proc.devRef .tc main_arg14) = W1 m ρ c (Proc.devRef .tc main_arg14) := W2_of_ne m ρ c main_arg14 (by decide)

/-! ## After the second host stretch -/

theorem W3_v44 (c : Dev nD) : W3 m ρ c (Proc.devRef .tc main_v44) = agg (W2 m ρ c (Proc.devRef .tc main_v29)) (m ((c.tc : Thread nD τ).loc main_arg1)) (m ((c.tc : Thread nD τ).loc main_arg2)) := by
  show StableHlo.after hostOps1 (W2 m ρ c) (Proc.devRef .tc main_v44) = _
  after_results_simp
  rw [W2_v1, W2_v3, W2_v12, W2_arg2, W1_v1, W1_v3, W1_v12, W1_arg2]
  rfl
theorem W3_v29 (c : Dev nD) : W3 m ρ c (Proc.devRef .tc main_v29) = W2 m ρ c (Proc.devRef .tc main_v29) := by
  show StableHlo.after hostOps1 (W2 m ρ c) (Proc.devRef .tc main_v29) = _
  after_results_simp <;> rfl
theorem W3_v45 (c : Dev nD) : W3 m ρ c (Proc.devRef .tc main_v45) = shapeCast _ (W2 m ρ c (Proc.devRef .tc main_arg9)) shapeCasts_S128_S1x128 := by
  show StableHlo.after hostOps1 (W2 m ρ c) (Proc.devRef .tc main_v45) = _
  after_results_simp <;> rfl
theorem W3_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl
theorem W3_arg10 (c : Dev nD) : W3 m ρ c (Proc.devRef .tc main_arg10) = W2 m ρ c (Proc.devRef .tc main_arg10) := by
  show StableHlo.after hostOps1 (W2 m ρ c) (Proc.devRef .tc main_arg10) = _
  after_results_simp <;> rfl
theorem W3_arg3 (c : Dev nD) : W3 m ρ c (Proc.devRef .tc main_arg3) = W2 m ρ c (Proc.devRef .tc main_arg3) := by
  show StableHlo.after hostOps1 (W2 m ρ c) (Proc.devRef .tc main_arg3) = _
  after_results_simp <;> rfl
theorem W3_arg4 (c : Dev nD) : W3 m ρ c (Proc.devRef .tc main_arg4) = W2 m ρ c (Proc.devRef .tc main_arg4) := by
  show StableHlo.after hostOps1 (W2 m ρ c) (Proc.devRef .tc main_arg4) = _
  after_results_simp <;> rfl
theorem W3_arg11 (c : Dev nD) : W3 m ρ c (Proc.devRef .tc main_arg11) = W2 m ρ c (Proc.devRef .tc main_arg11) := by
  show StableHlo.after hostOps1 (W2 m ρ c) (Proc.devRef .tc main_arg11) = _
  after_results_simp <;> rfl
theorem W3_arg12 (c : Dev nD) : W3 m ρ c (Proc.devRef .tc main_arg12) = W2 m ρ c (Proc.devRef .tc main_arg12) := by
  show StableHlo.after hostOps1 (W2 m ρ c) (Proc.devRef .tc main_arg12) = _
  after_results_simp <;> rfl
theorem W3_arg13 (c : Dev nD) : W3 m ρ c (Proc.devRef .tc main_arg13) = W2 m ρ c (Proc.devRef .tc main_arg13) := by
  show StableHlo.after hostOps1 (W2 m ρ c) (Proc.devRef .tc main_arg13) = _
  after_results_simp <;> rfl
theorem W3_arg14 (c : Dev nD) : W3 m ρ c (Proc.devRef .tc main_arg14) = W2 m ρ c (Proc.devRef .tc main_arg14) := by
  show StableHlo.after hostOps1 (W2 m ρ c) (Proc.devRef .tc main_arg14) = _
  after_results_simp <;> rfl

/-! ## After region 1 -/

theorem W4_v46 (c : Dev nD) : W4 m ρ c (Proc.devRef .tc main_v46) = emb (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 5).trans ((Arr1.arr (V3 m ρ) c).trans ?_)
  show Arr1.G1 (W3 m ρ c (Proc.devRef .tc main_v44)) (W3 m ρ c (Proc.devRef .tc main_v29)) (W3 m ρ c (Proc.devRef .tc main_arg8)) (W3 m ρ c (Proc.devRef .tc main_v45)) (W3 m ρ c (Proc.devRef .tc main_arg10)) = _
  rw [W3_v44, W3_v29, W3_arg8, W3_v45, W3_arg10, W2_v29, W2_arg8, W2_arg9, W2_arg10, W1_arg8, W1_arg9, W1_arg10]
  rfl
theorem W4_arg3 (c : Dev nD) : W4 m ρ c (Proc.devRef .tc main_arg3) = (m ((c.tc : Thread nD τ).loc main_arg3)) := by
  rw [W4_of_ne m ρ c main_arg3 (by decide), W3_arg3, W2_arg3, W1_arg3]
theorem W4_arg4 (c : Dev nD) : W4 m ρ c (Proc.devRef .tc main_arg4) = (m ((c.tc : Thread nD τ).loc main_arg4)) := by
  rw [W4_of_ne m ρ c main_arg4 (by decide), W3_arg4, W2_arg4, W1_arg4]
theorem W4_arg11 (c : Dev nD) : W4 m ρ c (Proc.devRef .tc main_arg11) = (m ((c.tc : Thread nD τ).loc main_arg11)) := by
  rw [W4_of_ne m ρ c main_arg11 (by decide), W3_arg11, W2_arg11, W1_arg11]
theorem W4_arg12 (c : Dev nD) : W4 m ρ c (Proc.devRef .tc main_arg12) = (m ((c.tc : Thread nD τ).loc main_arg12)) := by
  rw [W4_of_ne m ρ c main_arg12 (by decide), W3_arg12, W2_arg12, W1_arg12]
theorem W4_arg13 (c : Dev nD) : W4 m ρ c (Proc.devRef .tc main_arg13) = (m ((c.tc : Thread nD τ).loc main_arg13)) := by
  rw [W4_of_ne m ρ c main_arg13 (by decide), W3_arg13, W2_arg13, W1_arg13]
theorem W4_arg14 (c : Dev nD) : W4 m ρ c (Proc.devRef .tc main_arg14) = (m ((c.tc : Thread nD τ).loc main_arg14)) := by
  rw [W4_of_ne m ρ c main_arg14 (by decide), W3_arg14, W2_arg14, W1_arg14]

/-! ## After the third host stretch -/

theorem W5_v55 (c : Dev nD) : W5 m ρ c (Proc.devRef .tc main_v55) = gatherLbl (W4 m ρ c (Proc.devRef .tc main_v46)) (lblRow0 (m ((c.tc : Thread nD τ).loc main_arg3))) := by
  show StableHlo.after hostOps2 (W4 m ρ c) (Proc.devRef .tc main_v55) = _
  after_results_simp
  rw [W4_arg3]
  rfl
theorem W5_v64 (c : Dev nD) : W5 m ρ c (Proc.devRef .tc main_v64) = gatherLbl (W4 m ρ c (Proc.devRef .tc main_v46)) (lblRow1 (m ((c.tc : Thread nD τ).loc main_arg3))) := by
  show StableHlo.after hostOps2 (W4 m ρ c) (Proc.devRef .tc main_v64) = _
  after_results_simp
  rw [W4_arg3]
  rfl
theorem W5_v65 (c : Dev nD) : W5 m ρ c (Proc.devRef .tc main_v65) = broadcastInDim S500000x1 ![0] bcast_S500000_S500000x1_0 (W4 m ρ c (Proc.devRef .tc main_arg4)) := by
  show StableHlo.after hostOps2 (W4 m ρ c) (Proc.devRef .tc main_v65) = _
  after_results_simp <;> rfl
theorem W5_v66 (c : Dev nD) : W5 m ρ c (Proc.devRef .tc main_v66) = extractStridedSlice S128x64 ![0, 0] (W4 m ρ c (Proc.devRef .tc main_arg11)) slices_S257x64_S128x64_0_0 := by
  show StableHlo.after hostOps2 (W4 m ρ c) (Proc.devRef .tc main_v66) = _
  after_results_simp <;> rfl
theorem W5_v67 (c : Dev nD) : W5 m ρ c (Proc.devRef .tc main_v67) = extractStridedSlice S128x64 ![128, 0] (W4 m ρ c (Proc.devRef .tc main_arg11)) slices_S257x64_S128x64_128_0 := by
  show StableHlo.after hostOps2 (W4 m ρ c) (Proc.devRef .tc main_v67) = _
  after_results_simp <;> rfl
theorem W5_v68 (c : Dev nD) : W5 m ρ c (Proc.devRef .tc main_v68) = extractStridedSlice S1x64 ![256, 0] (W4 m ρ c (Proc.devRef .tc main_arg11)) slices_S257x64_S1x64_256_0 := by
  show StableHlo.after hostOps2 (W4 m ρ c) (Proc.devRef .tc main_v68) = _
  after_results_simp <;> rfl
theorem W5_v69 (c : Dev nD) : W5 m ρ c (Proc.devRef .tc main_v69) = shapeCast _ (W4 m ρ c (Proc.devRef .tc main_arg12)) shapeCasts_S64_S1x64 := by
  show StableHlo.after hostOps2 (W4 m ρ c) (Proc.devRef .tc main_v69) = _
  after_results_simp <;> rfl
theorem W5_v70 (c : Dev nD) : W5 m ρ c (Proc.devRef .tc main_v70) = shapeCast _ (W4 m ρ c (Proc.devRef .tc main_arg14)) shapeCasts_S1_S1x1 := by
  show StableHlo.after hostOps2 (W4 m ρ c) (Proc.devRef .tc main_v70) = _
  after_results_simp <;> rfl
theorem W5_arg13 (c : Dev nD) : W5 m ρ c (Proc.devRef .tc main_arg13) = W4 m ρ c (Proc.devRef .tc main_arg13) := by
  show StableHlo.after hostOps2 (W4 m ρ c) (Proc.devRef .tc main_arg13) = _
  after_results_simp <;> rfl

/-! ## After the decoder region, and the result -/

theorem W6_v71 (c : Dev nD) : W6 m ρ c (Proc.devRef .tc main_v71)
    = dec (gatherLbl (emb (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (lblRow0 (m ((c.tc : Thread nD τ).loc main_arg3))))
        (gatherLbl (emb (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (lblRow1 (m ((c.tc : Thread nD τ).loc main_arg3))))
        (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) := by
  refine (W6_arr m ρ c 9).trans ((Arr2.arr (V5 m ρ) c).trans ?_)
  show Arr2.G2 (W5 m ρ c (Proc.devRef .tc main_v55)) (W5 m ρ c (Proc.devRef .tc main_v64)) (W5 m ρ c (Proc.devRef .tc main_v65)) (W5 m ρ c (Proc.devRef .tc main_v66)) (W5 m ρ c (Proc.devRef .tc main_v67)) (W5 m ρ c (Proc.devRef .tc main_v68)) (W5 m ρ c (Proc.devRef .tc main_v69)) (W5 m ρ c (Proc.devRef .tc main_arg13)) (W5 m ρ c (Proc.devRef .tc main_v70)) = _
  rw [W5_v55, W5_v64, W5_v65, W5_v66, W5_v67, W5_v68, W5_v69, W5_arg13, W5_v70, W4_v46, W4_arg4, W4_arg11, W4_arg12, W4_arg13, W4_arg14]
  rfl

/-- The result buffer at the end of the run. -/
theorem W7_v72 (c : Dev nD) : W7 m ρ c (Proc.devRef .tc main_v72)
    = final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after hostOps3 (W6 m ρ c) (Proc.devRef .tc main_v72) = _
  after_results_simp
  rw [W6_v71]
  rfl

end Cert.KernelIdeal.Fold

end
-- ==== Proof.LibBcast.lean ====
/-
  Broadcasts through a unit axis, read at an index.

  A vector made a column and spread along the columns reads its own entry at the row; a vector made a row and
  spread along the rows reads its own entry at the column; a vector made a column reads its entry at the row; a
  scalar spread over any shape reads the scalar.
-/
import Idealize.ShloMosaic.Lib.Pipeline.Value
import Idealize.ShloMosaic.Lib.ValueIdx

noncomputable section

namespace Cert.LibBcast

open Idealize.ShloMosaic Idealize.ShloMosaic.ValueIdx

variable {α : Type}

/-- An [a] vector made an [a, 1] column reads, at (p, u), the vector at p. -/
theorem col_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply _ h v (ix2 p u) (ix1 p) (fun ax => by
    match ax with
    | ⟨0, _⟩ =>
      show p.val = if a = 1 then 0 else p.val
      split
      · have := p.isLt; omega
      · rfl)

/-- An [a] vector made a column and spread to [a, b] reads, at (p, q), the vector at p. -/
theorem col_spread_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α) (p : Fin a) (q : Fin b) :
    broadcastInDim ⟨2, ![a, b]⟩ ![0, 1] h2 (broadcastInDim ⟨2, ![a, 1]⟩ ![0] h1 v) (ix2 p q) = v (ix1 p) := by
  refine (broadcastInDim_apply _ h2 _ (ix2 p q) (ix2 p (0 : Fin 1)) (fun ax => ?_)).trans (col_apply h1 v p 0)
  match ax with
  | ⟨0, _⟩ =>
    show p.val = if a = 1 then 0 else p.val
    split
    · have := p.isLt; omega
    · rfl
  | ⟨1, _⟩ => show 0 = if (1 : ℕ) = 1 then 0 else q.val; rw [if_pos rfl]

/-- A [b] vector made a [1, b] row and spread to [a, b] reads, at (p, q), the vector at q. -/
theorem row_spread_apply {a b : ℕ} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α) (p : Fin a) (q : Fin b) :
    broadcastInDim ⟨2, ![a, b]⟩ ![0, 1] h2 (broadcastInDim ⟨2, ![1, b]⟩ ![1] h1 v) (ix2 p q) = v (ix1 q) := by
  refine (broadcastInDim_apply _ h2 _ (ix2 p q) (ix2 (0 : Fin 1) q) (fun ax => ?_)).trans
    (broadcastInDim_apply _ h1 v (ix2 (0 : Fin 1) q) (ix1 q) (fun ax => ?_))
  · match ax with
    | ⟨0, _⟩ => show 0 = if (1 : ℕ) = 1 then 0 else p.val; rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- A scalar spread over a shape reads the scalar. -/
theorem scalar_spread_apply {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun ax => ax.elim0)

end Cert.LibBcast

end
-- ==== Proof.Bridge.lean ====
/-
  The two programs' stages are the same functions.

  The mean aggregation: the kernel program multiplies the summed messages by 1 / max(count, 1), the reference
  divides them by max(count, 1); the divisor is at least one, so not zero, and on the extended reals
  s · (1 / c) = s / c for every c ≠ 0.  The dense GraphConv stage: at each row and feature both are the two sums
  over the 128 contracted positions and the bias entry, in the same order.  The decoder: the reference's product
  of the 257 concatenated features with the first decoder matrix splits into the products of the two endpoint
  embeddings with the first two stretches of 128 rows and of the explicit weight with the last row, which is how
  the kernel takes it; the rest is the same rectifier, product with the second matrix and bias.
-/
import proofs.«164888_j32607391711951_1_alg».proof.Proof.KSpec
import proofs.«164888_j32607391711951_1_alg».proof.Proof.LibBcast
import Idealize.ShloMosaic.Lib.ValueLayout
import Idealize.ShloMosaic.Lib.IdealHost

noncomputable section

namespace Cert.Bridge

open Idealize.ShloMosaic Idealize.ShloMosaic.ValueIdx Cert.Spec Cert.LibBcast
open Cert.ReferenceIdeal (S100000x128 S100000 S128x128 S128 S1x128 S2x1600000 S1600000 S500000x128 S500000 S500000x1 S257x64 S64 S64x1 S1 S2x500000)
open Cert.ReferenceIdeal.Spec (IArr FArr segSum cnt gatherLbl lblRow0 lblRow1)

/-- The host's quotient at an index. -/
theorem hostDivf_apply {s : Shape} {φ : FTy} (a b : FVec Ideal s φ) (i : s.Idx) : Host.divf a b i = Ideal.div (a i) (b i) := rfl

/-- The reference's dimension numbers are those of plain matrix products. -/
theorem dot_100000 : Cert.ReferenceIdeal.dot_S100000x128_S128x128_S100000x128_1_0_0_1_n_n = DotDims.plain 100000 128 128 := rfl
theorem dot_257 : Cert.ReferenceIdeal.dot_S500000x257_S257x64_S500000x64_1_0_0_1_n_n = DotDims.plain 500000 257 64 := rfl
theorem dot_64 : Cert.ReferenceIdeal.dot_S500000x64_S64x1_S500000x1_1_0_0_1_n_n = DotDims.plain 500000 64 1 := rfl

/-- The clamped count is not zero. -/
theorem cnt_ne_zero (ei : IArr S2x1600000) (p : Fin 100000) : cnt ei (ix1 p) ≠ 0 := by
  unfold cnt
  rw [maximumf_apply, scalar_spread_apply, constant_apply, Ideal.ofBits_one_f32]
  exact max_one_ne_zero _

/-- The mean aggregation is the same function in the two programs. -/
theorem agg_eq (feat : FArr S100000x128) (ei : IArr S2x1600000) (ew : FArr S1600000) :
    Cert.KernelIdeal.Fold.agg feat ei ew = Cert.ReferenceIdeal.Spec.agg feat ei ew := by
  funext i
  obtain ⟨p, q, rfl⟩ : ∃ (p : Fin 100000) (q : Fin 128), i = ix2 p q := ⟨i 0, i 1, eq_ix2 i⟩
  unfold Cert.KernelIdeal.Fold.agg Cert.KernelIdeal.Fold.invCnt Cert.ReferenceIdeal.Spec.agg
  rw [mulf_apply, hostDivf_apply, col_spread_apply, col_spread_apply, hostDivf_apply, scalar_spread_apply, constant_apply,
    Ideal.ofBits_one_f32]
  exact mul_div_one _ _ (cnt_ne_zero ei p)

/-- The rectified dense stage is the same function in the two programs. -/
theorem hid_stage_eq (a x : FArr S100000x128) (wr : FArr S128x128) (b : FArr S128) (wo : FArr S128x128) :
    Cert.KernelIdeal.Arr0.G0 a x wr (shapeCast _ b Cert.KernelIdeal.Gen.shapeCasts_S128_S1x128) wo
      = Cert.ReferenceIdeal.Spec.relu (Cert.ReferenceIdeal.Spec.conv a x wr b wo) := by
  funext i
  obtain ⟨p, q, rfl⟩ : ∃ (p : Fin 100000) (q : Fin 128), i = ix2 p q := ⟨i 0, i 1, eq_ix2 i⟩
  unfold Cert.KernelIdeal.Arr0.G0 Cert.ReferenceIdeal.Spec.relu Cert.ReferenceIdeal.Spec.conv rowConv
  simp only [maximumf_apply, addf_apply, dot_100000, Host.dotGeneral]
  rw [LibDot.dotGeneral_plain_apply, LibDot.dotGeneral_plain_apply, row_spread_apply, scalar_spread_apply, constant_apply,
    Ideal.ofBits_zero_f32, shapeCast_a_1a_apply]

/-- The dense stage is the same function in the two programs. -/
theorem emb_stage_eq (a x : FArr S100000x128) (wr : FArr S128x128) (b : FArr S128) (wo : FArr S128x128) :
    Cert.KernelIdeal.Arr1.G1 a x wr (shapeCast _ b Cert.KernelIdeal.Gen.shapeCasts_S128_S1x128) wo
      = Cert.ReferenceIdeal.Spec.conv a x wr b wo := by
  funext i
  obtain ⟨p, q, rfl⟩ : ∃ (p : Fin 100000) (q : Fin 128), i = ix2 p q := ⟨i 0, i 1, eq_ix2 i⟩
  unfold Cert.KernelIdeal.Arr1.G1 Cert.ReferenceIdeal.Spec.conv rowConv
  simp only [addf_apply, dot_100000, Host.dotGeneral]
  rw [LibDot.dotGeneral_plain_apply, LibDot.dotGeneral_plain_apply, row_spread_apply, shapeCast_a_1a_apply]

end Cert.Bridge

end
-- ==== Proof.BridgeDec.lean ====
/-
  The decoder is the same function in the two programs.

  The reference multiplies the 257 concatenated features of a label edge — the source embedding, the destination
  embedding, the explicit weight — with the first decoder matrix; the sum over the 257 positions splits into the
  sums over the two stretches of 128 and the last position, which are the kernel's two products with the first two
  stretches of rows of the matrix and its product of the weight with the last row.  Bias, rectifier, the product
  with the second matrix and the last bias are the same on both sides.
-/
import proofs.«164888_j32607391711951_1_alg».proof.Proof.KSpec
import proofs.«164888_j32607391711951_1_alg».proof.Proof.LibBcast
import Idealize.ShloMosaic.Lib.ValueLayout

noncomputable section

namespace Cert.BridgeDec

open Idealize.ShloMosaic Idealize.ShloMosaic.ValueIdx Cert.Spec Cert.LibBcast
open Cert.ReferenceIdeal (S500000x128 S500000 S500000x1 S500000x257 S257x64 S64 S64x1 S1)
open Cert.ReferenceIdeal.Spec (IArr FArr)

theorem dot_257 : Cert.ReferenceIdeal.dot_S500000x257_S257x64_S500000x64_1_0_0_1_n_n = DotDims.plain 500000 257 64 := rfl
theorem dot_64 : Cert.ReferenceIdeal.dot_S500000x64_S64x1_S500000x1_1_0_0_1_n_n = DotDims.plain 500000 64 1 := rfl

section Concat
variable (zs zd : FArr S500000x128) (c : FArr S500000x1)
  (h : Shape.Concatenates (([⟨S500000x128, zs⟩, ⟨S500000x128, zd⟩, ⟨S500000x1, c⟩] : List ((s : Shape) × (s.Idx → EReal))).map (·.1)) S500000x257 1)

/-- The concatenated features at a position of the first stretch are the source embedding. -/
theorem concat_src (p : Fin 500000) (k : Fin 128) :
    concatenate S500000x257 1 [⟨S500000x128, zs⟩, ⟨S500000x128, zd⟩, ⟨S500000x1, c⟩] h (ix2 p ⟨k.val, by have := k.isLt; omega⟩) = zs (ix2 p k) :=
  concatenate_apply_piece 1 _ h _ 0 (by show (0 : ℕ) < 3; omega) S500000x128 zs rfl rfl 0 rfl (ix2 p k)
    (fun b hb => by
      match b with
      | ⟨0, _⟩ => rfl
      | ⟨1, _⟩ => exact absurd rfl hb)
    (by show 0 + k.val = k.val; omega)

/-- At a position of the second stretch, the destination embedding. -/
theorem concat_dst (p : Fin 500000) (k : Fin 128) :
    concatenate S500000x257 1 [⟨S500000x128, zs⟩, ⟨S500000x128, zd⟩, ⟨S500000x1, c⟩] h (ix2 p ⟨128 + k.val, by have := k.isLt; omega⟩) = zd (ix2 p k) :=
  concatenate_apply_piece 1 _ h _ 1 (by show (1 : ℕ) < 3; omega) S500000x128 zd rfl rfl 128 rfl (ix2 p k)
    (fun b hb => by
      match b with
      | ⟨0, _⟩ => rfl
      | ⟨1, _⟩ => exact absurd rfl hb)
    rfl

/-- At the last position, the explicit weight column. -/
theorem concat_w (p : Fin 500000) :
    concatenate S500000x257 1 [⟨S500000x128, zs⟩, ⟨S500000x128, zd⟩, ⟨S500000x1, c⟩] h (ix2 p ⟨256, by omega⟩) = c (ix2 p (0 : Fin 1)) :=
  concatenate_apply_piece 1 _ h _ 2 (by show (2 : ℕ) < 3; omega) S500000x1 c rfl rfl 256 rfl (ix2 p (0 : Fin 1))
    (fun b hb => by
      match b with
      | ⟨0, _⟩ => rfl
      | ⟨1, _⟩ => exact absurd rfl hb)
    rfl

end Concat

/-- The decoder is the same function in the two programs. -/
theorem dec_eq (zs zd : FArr S500000x128) (e : FArr S500000) (w1 : FArr S257x64) (b1 : FArr S64) (w2 : FArr S64x1) (b2 : FArr S1) :
    Cert.KernelIdeal.Fold.dec zs zd e w1 b1 w2 b2 = Cert.ReferenceIdeal.Spec.dec zs zd e w1 b1 w2 b2 := by
  funext i
  obtain ⟨p, u, rfl⟩ : ∃ (p : Fin 500000) (u : Fin 1), i = ix2 p u := ⟨i 0, i 1, eq_ix2 i⟩
  have hu : u = 0 := Subsingleton.elim _ _
  subst hu
  unfold Cert.KernelIdeal.Fold.dec Cert.KernelIdeal.Arr2.G2 Cert.ReferenceIdeal.Spec.dec rowDec rowHid
  simp only [addf_apply, dot_64, dot_257, Host.dotGeneral]
  rw [LibDot.dotGeneral_plain_apply]
  refine congrArg₂ (· + ·) (Finset.sum_congr rfl fun j _ => ?_) ?_
  · refine congrArg (· * _) ?_
    rw [maximumf_apply, addf_apply, LibDot.dotGeneral_plain_apply, sum_257, row_spread_apply, scalar_spread_apply, constant_apply,
      Ideal.ofBits_zero_f32]
    refine congrArg (max · 0) ?_
    rw [shapeCast_a_1a_apply, concat_w, slice2_axis0_apply 256 w1 _ (0 : Fin 1) j ⟨256, by omega⟩ rfl]
    refine congrArg (· + _) (congrArg₂ (· + ·) (congrArg₂ (· + ·) (Finset.sum_congr rfl fun k _ => ?_) (Finset.sum_congr rfl fun k _ => ?_)) rfl)
    · rw [concat_src, slice2_axis0_apply 0 w1 _ k j ⟨k.val, by have := k.isLt; omega⟩ (by simp)]
    · rw [concat_dst, slice2_axis0_apply 128 w1 _ k j ⟨128 + k.val, by have := k.isLt; omega⟩ rfl]
  · rw [row_spread_apply, shapeCast_a_1a_apply]

end Cert.BridgeDec

end
-- ==== Proof.Final.lean ====
/-
  The two programs compute the same function of their fifteen arguments.

  Layer by layer: the hidden features agree because the aggregation and the rectified dense stage do; the embeddings
  agree because the aggregation of the (equal) hidden features and the dense stage do; the scores agree because the
  gathers are of equal embeddings at the same label indices and the decoder is the same function.
-/
import proofs.«164888_j32607391711951_1_alg».proof.Proof.Bridge
import proofs.«164888_j32607391711951_1_alg».proof.Proof.BridgeDec

noncomputable section

namespace Cert.Bridge

open Idealize.ShloMosaic
open Cert.ReferenceIdeal (S100000x128 S128x128 S128 S2x1600000 S1600000 S500000 S257x64 S64 S64x1 S1 S2x500000)
open Cert.ReferenceIdeal.Spec (IArr FArr)

theorem hid_eq (x : FArr S100000x128) (ei : IArr S2x1600000) (ew : FArr S1600000) (w1r : FArr S128x128) (b1 : FArr S128) (w1o : FArr S128x128) :
    Cert.KernelIdeal.Fold.hid x ei ew w1r b1 w1o = Cert.ReferenceIdeal.Spec.hid x ei ew w1r b1 w1o := by
  unfold Cert.KernelIdeal.Fold.hid Cert.ReferenceIdeal.Spec.hid
  rw [hid_stage_eq, agg_eq]

theorem emb_eq (x : FArr S100000x128) (ei : IArr S2x1600000) (ew : FArr S1600000) (w1r : FArr S128x128) (b1 : FArr S128) (w1o : FArr S128x128)
    (w2r : FArr S128x128) (b2 : FArr S128) (w2o : FArr S128x128) :
    Cert.KernelIdeal.Fold.emb x ei ew w1r b1 w1o w2r b2 w2o = Cert.ReferenceIdeal.Spec.emb x ei ew w1r b1 w1o w2r b2 w2o := by
  unfold Cert.KernelIdeal.Fold.emb Cert.ReferenceIdeal.Spec.emb
  rw [hid_eq, emb_stage_eq, agg_eq]

/-- The kernel program's result function is the reference's. -/
theorem final_eq (x : FArr S100000x128) (ei : IArr S2x1600000) (ew : FArr S1600000) (eli : IArr S2x500000) (e : FArr S500000)
    (w1r : FArr S128x128) (b1 : FArr S128) (w1o : FArr S128x128) (w2r : FArr S128x128) (b2 : FArr S128) (w2o : FArr S128x128)
    (wd1 : FArr S257x64) (bd1 : FArr S64) (wd2 : FArr S64x1) (bd2 : FArr S1) :
    Cert.KernelIdeal.Fold.final x ei ew eli e w1r b1 w1o w2r b2 w2o wd1 bd1 wd2 bd2
      = Cert.ReferenceIdeal.Spec.final x ei ew eli e w1r b1 w1o w2r b2 w2o wd1 bd1 wd2 bd2 := by
  unfold Cert.KernelIdeal.Fold.final Cert.ReferenceIdeal.Spec.final
  rw [emb_eq, Cert.BridgeDec.dec_eq]

end Cert.Bridge

end
-- ==== Proof.lean ====
/-
  The certificate.

  The kernel program is three pipelined regions among host stretches: two dense GraphConv stages, each over the
  host's mean aggregation of the features along the edges, and a decoder over the gathered endpoint embeddings of
  the label edges; the reference is the same network on the host alone.  The three frames are the generated runs.
  Nothing was rewritten by the ideal pass.  For the algebraic claim the kernel program's run is re-posted with its
  result buffer, that buffer is read back through the regions and host stretches as one composition of stages, the
  reference's result term is cut into the same stages, and the stages are shown equal: the aggregation by
  s · (1 / c) = s / c for the clamped count c ≥ 1, the dense stages sum by sum, the decoder by splitting the
  257-term product into its three stretches.
-/
import proofs.«164888_j32607391711951_1_alg».proof.Defs
import proofs.«164888_j32607391711951_1_alg».proof.Proof.Gen.Kernel
import proofs.«164888_j32607391711951_1_alg».proof.Proof.Gen.Kernel.Skeleton
import proofs.«164888_j32607391711951_1_alg».proof.Proof.Gen.Kernel.Launch
import proofs.«164888_j32607391711951_1_alg».proof.Proof.Gen.Kernel.Points
import proofs.«164888_j32607391711951_1_alg».proof.Proof.Gen.Kernel.Frame
import proofs.«164888_j32607391711951_1_alg».proof.Proof.Gen.KernelIdeal
import proofs.«164888_j32607391711951_1_alg».proof.Proof.Gen.KernelIdeal.Skeleton
import proofs.«164888_j32607391711951_1_alg».proof.Proof.Gen.KernelIdeal.Launch
import proofs.«164888_j32607391711951_1_alg».proof.Proof.Gen.KernelIdeal.Points
import proofs.«164888_j32607391711951_1_alg».proof.Proof.Gen.KernelIdeal.Frame
import proofs.«164888_j32607391711951_1_alg».proof.Proof.Gen.ReferenceIdeal
import proofs.«164888_j32607391711951_1_alg».proof.Proof.Gen.Pre_finite_inputs
import proofs.«164888_j32607391711951_1_alg».proof.Proof.Gen.ReferenceIdeal.Run
import proofs.«164888_j32607391711951_1_alg».proof.Proof.KRun
import proofs.«164888_j32607391711951_1_alg».proof.Proof.KFold
import proofs.«164888_j32607391711951_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel program's result buffer, read back through its run, and the
    reference's result term are one function of arguments that agree. -/
theorem algebraic : Cert.algebraic_KernelIdeal_ReferenceIdeal := by
  intro m ρ m' ρ' _ hagree
  refine ⟨fun c => Cert.KernelIdeal.Fold.final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Fold.W7_v72 m ρ c), (h c).2⟩) (Cert.KernelIdeal.Gen.run_value m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Spec.res_eq, h0, h1, h2, h3, h4, h5, h6, h7, h8, h9, h10, h11, h12, h13, h14]
    exact (Cert.Bridge.final_eq _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
